-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_
  bcast_S_S4096x32 : S_.BroadcastsInDim S4096x32 (![] : Fin 0 → Fin S4096x32.rank)
  reducesTo_S4096x32_S_d0_1 : S4096x32.ReducesTo [0, 1] S_
  bcast_S_S32 : S_.BroadcastsInDim S32 (![] : Fin 0 → Fin S32.rank)
  reducesTo_S32_S_d0 : S32.ReducesTo [0] S_
  bcast_S_S64x4096 : S_.BroadcastsInDim S64x4096 (![] : Fin 0 → Fin S64x4096.rank)
  reducesTo_S64x4096_S_d0_1 : S64x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S4096 .f32) (main_arg8 : FVec F S4096x128 .f32) (main_arg9 : FVec F S128 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x128 .f32 := Host.absf main_arg8
  let main_cst_14 : FVec F S_ .f32 := constant S_ .f32 0x7F800000#32
  let main_v40 : FVec F S4096x128 .f32 := broadcastInDim S4096x128 ![] bcast_S_S4096x128 main_cst_14
  let main_v41 : IVec S4096x128 1 := cmpf .olt main_v39 main_v40
  let main_c_15 : IVec S_ 1 := constantI S_ 1 1#1
  let main_v42 : IVec S_ 1 := (fun x v => Host.reduce IntOp.andi x v reducesTo_S4096x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S4096x32 .f32) (main_arg5 : FVec F S32 .f32) (main_arg6 : FVec F S64x4096 .f32) (main_arg7 : FVec F S4096 .f32) (main_arg8 : FVec F S4096x128 .f32) (main_arg9 : FVec F S128 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x4096 .f32 := Host.absf main_arg6
  let main_cst_10 : FVec F S_ .f32 := constant S_ .f32 0x7F800000#32
  let main_v30 : FVec F S64x4096 .f32 := broadcastInDim S64x4096 ![] bcast_S_S64x4096 main_cst_10
  let main_v31 : IVec S64x4096 1 := cmpf .olt main_v29 main_v30
  let main_c_11 : IVec S_ 1 := constantI S_ 1 1#1
  let main_v32 : IVec S_ 1 := (fun x v => Host.reduce IntOp.andi x v reducesTo_S64x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x32 .f32) (main_arg1 : FVec F S16384x32 .f32) (main_arg2 : FVec F S32x4096 .f32) (main_arg3 : FVec F S4096 .f32) (main_arg4 : FVec F S4096x32 .f32) (main_arg5 : FVec F S32 .f32) (main_arg6 : FVec F S64x4096 .f32) (main_arg7 : FVec F S4096 .f32) (main_arg8 : FVec F S4096x128 .f32) (main_arg9 : FVec F S128 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S32x4096 .f32 := Host.absf main_arg2
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩
abbrev S16384x1 : Shape := ⟨2, ![16384, 1]⟩
abbrev S16384x33 : Shape := ⟨2, ![16384, 33]⟩
abbrev S1x4096 : Shape := ⟨2, ![1, 4096]⟩
abbrev S33x4096 : Shape := ⟨2, ![33, 4096]⟩
abbrev S65x4096 : Shape := ⟨2, ![65, 4096]⟩
abbrev S1x32 : Shape := ⟨2, ![1, 32]⟩
abbrev S1x128 : Shape := ⟨2, ![1, 128]⟩
abbrev S16384x128 : Shape := ⟨2, ![16384, 128]⟩
abbrev S512x33 : Shape := ⟨2, ![512, 33]⟩
abbrev S512x128 : Shape := ⟨2, ![512, 128]⟩
abbrev S1024x33 : Shape := ⟨2, ![1024, 33]⟩
abbrev S1024x4096 : Shape := ⟨2, ![1024, 4096]⟩
abbrev S1024x32 : Shape := ⟨2, ![1024, 32]⟩
abbrev S512x32 : Shape := ⟨2, ![512, 32]⟩
abbrev S512x1 : Shape := ⟨2, ![512, 1]⟩
abbrev S512x65 : Shape := ⟨2, ![512, 65]⟩
abbrev S512x4096 : Shape := ⟨2, ![512, 4096]⟩

abbrev nBuf : Space → Nat
  | .hbm => 27
  | .vmem => 12
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S_, .f32⟩
  | .hbm, ⟨11, _⟩ => ⟨S16384x1, .f32⟩
  | .hbm, ⟨12, _⟩ => ⟨S16384x33, .f32⟩
  | .hbm, ⟨13, _⟩ => ⟨S16384x33, .bf16⟩
  | .hbm, ⟨14, _⟩ => ⟨S16384x33, .f32⟩
  | .hbm, ⟨15, _⟩ => ⟨S16384x33, .bf16⟩
  | .hbm, ⟨16, _⟩ => ⟨S1x4096, .f32⟩
  | .hbm, ⟨17, _⟩ => ⟨S33x4096, .f32⟩
  | .hbm, ⟨18, _⟩ => ⟨S33x4096, .bf16⟩
  | .hbm, ⟨19, _⟩ => ⟨S1x4096, .f32⟩
  | .hbm, ⟨20, _⟩ => ⟨S65x4096, .f32⟩
  | .hbm, ⟨21, _⟩ => ⟨S65x4096, .bf16⟩
  | .hbm, ⟨22, _⟩ => ⟨S4096x32, .bf16⟩
  | .hbm, ⟨23, _⟩ => ⟨S4096x128, .bf16⟩
  | .hbm, ⟨24, _⟩ => ⟨S1x32, .f32⟩
  | .hbm, ⟨25, _⟩ => ⟨S1x128, .f32⟩
  | .hbm, ⟨26, _⟩ => ⟨S16384x128, .f32⟩
  | .local _ .vmem, ⟨0, _⟩ => ⟨S512x33, .bf16⟩
  | .local _ .vmem, ⟨1, _⟩ => ⟨S512x33, .bf16⟩
  | .local _ .vmem, ⟨2, _⟩ => ⟨S512x33, .bf16⟩
  | .local _ .vmem, ⟨3, _⟩ => ⟨S512x33, .bf16⟩
  | .local _ .vmem, ⟨4, _⟩ => ⟨S33x4096, .bf16⟩
  | .local _ .vmem, ⟨5, _⟩ => ⟨S4096x32, .bf16⟩
  | .local _ .vmem, ⟨6, _⟩ => ⟨S1x32, .f32⟩
  | .local _ .vmem, ⟨7, _⟩ => ⟨S65x4096, .bf16⟩
  | .local _ .vmem, ⟨8, _⟩ => ⟨S4096x128, .bf16⟩
  | .local _ .vmem, ⟨9, _⟩ => ⟨S1x128, .f32⟩
  | .local _ .vmem, ⟨10, _⟩ => ⟨S512x128, .f32⟩
  | .local _ .vmem, ⟨11, _⟩ => ⟨S512x128, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x33 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x33 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S33x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S65x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S16384x1 : S_.BroadcastsInDim S16384x1 (![] : Fin 0 → Fin S16384x1.rank)
  concatenates_S16384x32_S16384x1_S16384x33_d1 : Shape.Concatenates [S16384x32, S16384x1] S16384x33 1
  bitsLt_bf16_f32 : FTy.bits .bf16 < FTy.bits .f32
  bcast_S4096_S1x4096_1 : S4096.BroadcastsInDim S1x4096 (![1] : Fin 1 → Fin S1x4096.rank)
  concatenates_S32x4096_S1x4096_S33x4096_d0 : Shape.Concatenates [S32x4096, S1x4096] S33x4096 0
  concatenates_S64x4096_S1x4096_S65x4096_d0 : Shape.Concatenates [S64x4096, S1x4096] S65x4096 0
  shapeCasts_S32_S1x32 : S32.ShapeCasts S1x32
  shapeCasts_S128_S1x128 : S128.ShapeCasts S1x128
  inb_S512x33_S512x33_0_0 : ∀ a, (![0, 0] : Fin 2 → Nat) a + S512x33.size a ≤ S512x33.size a
  h_S512x33 : 0 < S512x33.numel
  shapeCasts_S512x33_S512x33 : S512x33.ShapeCasts S512x33
  concatenates_S512x33_S512x33_S1024x33_d0 : Shape.Concatenates [S512x33, S512x33] S1024x33 0
  inb_S33x4096_S33x4096_0_0 : ∀ a, (![0, 0] : Fin 2 → Nat) a + S33x4096.size a ≤ S33x4096.size a
  h_S33x4096 : 0 < S33x4096.numel
  shapeCasts_S33x4096_S33x4096 : S33x4096.ShapeCasts S33x4096
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  slices_S1024x32_o0_0_S512x32 : S1024x32.Slices ![0, 0] S512x32
  slices_S1024x32_o512_0_S512x32 : S1024x32.Slices ![512, 0] S512x32
  concatenates_S512x32_S512x32_S512x1_S512x65_d1 : Shape.Concatenates [S512x32, S512x32, S512x1] S512x65 1
  inb_S65x4096_S65x4096_0_0 : ∀ a, (![0, 0] : Fin 2 → Nat) a + S65x4096.size a ≤ S65x4096.size a
  h_S65x4096 : 0 < S65x4096.numel
  shapeCasts_S65x4096_S65x4096 : S65x4096.ShapeCasts S65x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  dot_S1024x33_S33x4096_S1024x4096_1_0_0_1_n_n_wf : DotDims.WF S1024x33 S33x4096 S1024x4096 [1] [0] [0] [1] [] []
  dot_S1024x4096_S4096x32_S1024x32_1_0_0_1_n_n_wf : DotDims.WF S1024x4096 S4096x32 S1024x32 [1] [0] [0] [1] [] []
  dot_S512x65_S65x4096_S512x4096_1_0_0_1_n_n_wf : DotDims.WF S512x65 S65x4096 S512x4096 [1] [0] [0] [1] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x33.size a ≤ S16384x33.size a
  hwx0_0 : ∀ i : grid0.Coords, EltTy.bits .bf16 = 32 ∨ (Rect.block (s := S16384x33) S512x33.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x33.size a ≤ S16384x33.size a
  hwx0_1 : ∀ i : grid0.Coords, EltTy.bits .bf16 = 32 ∨ (Rect.block (s := S16384x33) S512x33.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S33x4096.size a ≤ S33x4096.size a
  hwx0_2 : ∀ i : grid0.Coords, EltTy.bits .bf16 = 32 ∨ (Rect.block (s := S33x4096) S33x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x32.size a ≤ S4096x32.size a
  hwx0_3 : ∀ i : grid0.Coords, EltTy.bits .bf16 = 32 ∨ (Rect.block (s := S4096x32) S4096x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S65x4096.size a ≤ S65x4096.size a
  hwx0_5 : ∀ i : grid0.Coords, EltTy.bits .bf16 = 32 ∨ (Rect.block (s := S65x4096) S65x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S4096x128.size a
  hwx0_6 : ∀ i : grid0.Coords, EltTy.bits .bf16 = 32 ∨ (Rect.block (s := S4096x128) S4096x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x128.size a ≤ S16384x128.size a
  hwx0_8 : ∀ i : grid0.Coords, EltTy.bits .f32 = 32 ∨ (Rect.block (s := S16384x128) S512x128.size (cc0_transform_8 i) (hinb0_8 i)).WholeWords (EltTy.packing .f32)

variable [Facts₀]

def dot_S1024x33_S33x4096_S1024x4096_1_0_0_1_n_n : DotDims S1024x33 S33x4096 S1024x4096 where
  lhsContracting := [1]
  rhsContracting := [0]
  lhsNonContracting := [0]
  rhsNonContracting := [1]
  lhsBatch := []
  rhsBatch := []
  wf := dot_S1024x33_S33x4096_S1024x4096_1_0_0_1_n_n_wf
def dot_S1024x4096_S4096x32_S1024x32_1_0_0_1_n_n : DotDims S1024x4096 S4096x32 S1024x32 where
  lhsContracting := [1]
  rhsContracting := [0]
  lhsNonContracting := [0]
  rhsNonContracting := [1]
  lhsBatch := []
  rhsBatch := []
  wf := dot_S1024x4096_S4096x32_S1024x32_1_0_0_1_n_n_wf
def dot_S512x65_S65x4096_S512x4096_1_0_0_1_n_n : DotDims S512x65 S65x4096 S512x4096 where
  lhsContracting := [1]
  rhsContracting := [0]
  lhsNonContracting := [0]
  rhsNonContracting := [1]
  lhsBatch := []
  rhsBatch := []
  wf := dot_S512x65_S65x4096_S512x4096_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_v2) S512x33.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x33.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S33x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S4096x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S65x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S4096x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S512x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S16384x4096 : Shape := ⟨2, ![16384, 4096]⟩
abbrev S1x4096 : Shape := ⟨2, ![1, 4096]⟩
abbrev S_ : Shape := ⟨0, ![]⟩
abbrev S1x32 : Shape := ⟨2, ![1, 32]⟩
abbrev S16384x64 : Shape := ⟨2, ![16384, 64]⟩
abbrev S16384x128 : Shape := ⟨2, ![16384, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S16384x4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x32, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S_, .f32⟩
  | .hbm, ⟨22, _⟩ => ⟨S16384x32, .f32⟩
  | .hbm, ⟨23, _⟩ => ⟨S16384x32, .f32⟩
  | .hbm, ⟨24, _⟩ => ⟨S16384x4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x32, .f32⟩
  | .hbm, ⟨32, _⟩ => ⟨S1x32, .f32⟩
  | .hbm, ⟨33, _⟩ => ⟨S16384x32, .f32⟩
  | .hbm, ⟨34, _⟩ => ⟨S16384x32, .f32⟩
  | .hbm, ⟨35, _⟩ => ⟨S_, .f32⟩
  | .hbm, ⟨36, _⟩ => ⟨S16384x32, .f32⟩
  | .hbm, ⟨37, _⟩ => ⟨S16384x32, .f32⟩
  | .hbm, ⟨38, _⟩ => ⟨S16384x64, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S16384x128, .f32⟩
  | .hbm, ⟨47, _⟩ => ⟨S1x128, .f32⟩
  | .hbm, ⟨48, _⟩ => ⟨S16384x128, .f32⟩
  | .hbm, ⟨49, _⟩ => ⟨S16384x128, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call3_cst : Ref sig .tc := ⟨.hbm, 35, rfl⟩
abbrev main_call3_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call4_cst : Ref sig .tc := ⟨.hbm, 43, rfl⟩
abbrev main_call4_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  concatenates_S16384x32_S16384x32_S16384x64_d1 : Shape.Concatenates [S16384x32, S16384x32] S16384x64 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x32_S32x4096_S16384x4096_1_0_0_1_n_n_wf : DotDims.WF S16384x32 S32x4096 S16384x4096 [1] [0] [0] [1] [] []
  dot_S16384x4096_S4096x32_S16384x32_1_0_0_1_n_n_wf : DotDims.WF S16384x4096 S4096x32 S16384x32 [1] [0] [0] [1] [] []
  dot_S16384x64_S64x4096_S16384x4096_1_0_0_1_n_n_wf : DotDims.WF S16384x64 S64x4096 S16384x4096 [1] [0] [0] [1] [] []
  dot_S16384x4096_S4096x128_S16384x128_1_0_0_1_n_n_wf : DotDims.WF S16384x4096 S4096x128 S16384x128 [1] [0] [0] [1] [] []

variable [Facts₀]

def dot_S16384x32_S32x4096_S16384x4096_1_0_0_1_n_n : DotDims S16384x32 S32x4096 S16384x4096 where
  lhsContracting := [1]
  rhsContracting := [0]
  lhsNonContracting := [0]
  rhsNonContracting := [1]
  lhsBatch := []
  rhsBatch := []
  wf := dot_S16384x32_S32x4096_S16384x4096_1_0_0_1_n_n_wf
def dot_S16384x4096_S4096x32_S16384x32_1_0_0_1_n_n : DotDims S16384x4096 S4096x32 S16384x32 where
  lhsContracting := [1]
  rhsContracting := [0]
  lhsNonContracting := [0]
  rhsNonContracting := [1]
  lhsBatch := []
  rhsBatch := []
  wf := dot_S16384x4096_S4096x32_S16384x32_1_0_0_1_n_n_wf
def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf
def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf

class Facts : Prop extends Facts₀ where

variable [Facts]
-- ==== Proof.MlpSpec.lean ====
/-
  What the network computes, for one sample, over the extended reals.

  A sample is a pair of state rows `x, y : Fin 32 → EReal`. Each goes through the same two dense layers with a
  rectifier after each (`hidden`, then `feature`); the two 32-wide feature rows are laid side by side
  (`joined`) and go through a third rectified dense layer and a last affine one (`action`).
  `net` is the whole-array form: row `r` of the two state arrays gives row `r` of the result.

  Also here: the one law that joins a dense layer written with an explicit bias to the same layer written with
  the bias folded into the weights as one more row, against a constant one appended to the input
  (`sum_last_one`): splitting the last summand off a finite sum and `1 * b = b`, which hold on the
  extended reals with no finiteness assumption.
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-- The float word `0x3F800000` (sign 0, exponent 127, fraction 0) denotes `2^23 · 2^(127-127-23) = 1`. -/
theorem ofBits_one_f32 : Ideal.ofBits .f32 0x3F800000#32 = 1 := by
  simp [Ideal.ofBits, Ideal.ieee]
  rw [← EReal.coe_mul, ← EReal.coe_one]
  exact congrArg _ (by norm_num)

/-- A sum of products whose LAST left factor is one: the last right factor comes out as an added bias. -/
theorem sum_last_one {n : ℕ} (x w : Fin (n + 1) → EReal) (h : x (Fin.last n) = 1) :
    ∑ i, x i * w i = ∑ i : Fin n, x i.castSucc * w i.castSucc + w (Fin.last n) := by
  rw [Fin.sum_univ_castSucc, h, one_mul]

/-- First layer, rectified: `max (x · W[:, k] + b k) 0`. -/
def hidden (W : Fin 32 → Fin 4096 → EReal) (b : Fin 4096 → EReal) (x : Fin 32 → EReal) (k : Fin 4096) : EReal :=
  max (∑ i, x i * W i k + b k) 0

/-- Second layer, rectified, over the first: a sample's 32 features. -/
def feature (W1 : Fin 32 → Fin 4096 → EReal) (b1 : Fin 4096 → EReal) (W2 : Fin 4096 → Fin 32 → EReal)
    (b2 : Fin 32 → EReal) (x : Fin 32 → EReal) (j : Fin 32) : EReal :=
  max (∑ k, hidden W1 b1 x k * W2 k j + b2 j) 0

/-- Two feature rows side by side: columns 0–31 the first, 32–63 the second. -/
def joined (u v : Fin 32 → EReal) (j : Fin 64) : EReal :=
  if h : j.val < 32 then u ⟨j.val, h⟩ else v ⟨j.val - 32, by omega⟩

/-- Third layer, rectified, over the joined features, then the last affine layer. -/
def action (W3 : Fin 64 → Fin 4096 → EReal) (b3 : Fin 4096 → EReal) (W4 : Fin 4096 → Fin 128 → EReal)
    (b4 : Fin 128 → EReal) (u v : Fin 32 → EReal) (a : Fin 128) : EReal :=
  ∑ k, max (∑ j, joined u v j * W3 j k + b3 k) 0 * W4 k a + b4 a

/-- The whole result array as ONE function of the ten argument arrays, index by index. -/
def net (S N : (⟨2, ![16384, 32]⟩ : Shape).Idx → EReal) (W1 : (⟨2, ![32, 4096]⟩ : Shape).Idx → EReal)
    (b1 : (⟨1, ![4096]⟩ : Shape).Idx → EReal) (W2 : (⟨2, ![4096, 32]⟩ : Shape).Idx → EReal)
    (b2 : (⟨1, ![32]⟩ : Shape).Idx → EReal) (W3 : (⟨2, ![64, 4096]⟩ : Shape).Idx → EReal)
    (b3 : (⟨1, ![4096]⟩ : Shape).Idx → EReal) (W4 : (⟨2, ![4096, 128]⟩ : Shape).Idx → EReal)
    (b4 : (⟨1, ![128]⟩ : Shape).Idx → EReal) : (⟨2, ![16384, 128]⟩ : Shape).Idx → EReal := fun i =>
  action (fun j k => W3 (ix2 j k)) (fun k => b3 (ix1 k)) (fun k a => W4 (ix2 k a)) (fun a => b4 (ix1 a))
    (feature (fun c k => W1 (ix2 c k)) (fun k => b1 (ix1 k)) (fun k j => W2 (ix2 k j)) (fun j => b2 (ix1 j))
      (fun c => S (ix2 (i 0) c)))
    (feature (fun c k => W1 (ix2 c k)) (fun k => b1 (ix1 k)) (fun k j => W2 (ix2 k j)) (fun j => b2 (ix1 j))
      (fun c => N (ix2 (i 0) c)))
    (i 1)

end Cert.Mlp

end
-- ==== Proof.RefRead.lean ====
/-
  The reference, read at an index: its result array is `Cert.Mlp.net` of the ten arguments.

  The reference computes the four layers on whole arrays. Read at row `r`: the first rectified layer at `(r, k)` is
  `hidden` of row `r` of the state array; the second at `(r, j)` is `feature` of it; the same for the other
  state array (the same two functions: the program calls the two layers twice); the concatenation at `(r, j)` is
  the first feature row for `j < 32` and the second at `j - 32` otherwise, which is `joined`; the last two layers
  are `action`. Every rectifier compares with the word of zero, which denotes `0`.
-/
import proofs.«139191_g11802570129985_cont_fleet_79_4_alg».proof.Proof.Gen.ReferenceIdeal.Read
import proofs.«139191_g11802570129985_cont_fleet_79_4_alg».proof.Proof.MlpSpec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Mlp

variable (x0 x1 : (⟨S16384x32, .f32⟩ : BufTy).Contents (Elt Ideal)) (x2 : (⟨S32x4096, .f32⟩ : BufTy).Contents (Elt Ideal)) (x3 : (⟨S4096, .f32⟩ : BufTy).Contents (Elt Ideal))
  (x4 : (⟨S4096x32, .f32⟩ : BufTy).Contents (Elt Ideal)) (x5 : (⟨S32, .f32⟩ : BufTy).Contents (Elt Ideal)) (x6 : (⟨S64x4096, .f32⟩ : BufTy).Contents (Elt Ideal)) (x7 : (⟨S4096, .f32⟩ : BufTy).Contents (Elt Ideal))
  (x8 : (⟨S4096x128, .f32⟩ : BufTy).Contents (Elt Ideal)) (x9 : (⟨S128, .f32⟩ : BufTy).Contents (Elt Ideal))

/-- The weights and biases as functions of plain coordinates. -/
abbrev w1 : Fin 32 → Fin 4096 → EReal := fun c k => x2 (ix2 c k)
abbrev c1 : Fin 4096 → EReal := fun k => x3 (ix1 k)
abbrev w2 : Fin 4096 → Fin 32 → EReal := fun k j => x4 (ix2 k j)
abbrev c2 : Fin 32 → EReal := fun j => x5 (ix1 j)

/-- The two calls of the first two layers are the same functions of their state array. -/
theorem second_hidden : val_main_v14 (F := Ideal) x1 x2 x3 = val_main_v4 (F := Ideal) x1 x2 x3 := rfl
theorem second_feature : val_main_v19 (F := Ideal) x1 x2 x3 x4 x5 = val_main_v9 (F := Ideal) x1 x2 x3 x4 x5 := rfl

/-- The first rectified layer at `(r, k)`. -/
theorem hidden_at (r : Fin 16384) (k : Fin 4096) :
    val_main_v4 (F := Ideal) x0 x2 x3 (ix2 r k) = hidden (w1 x2) (c1 x3) (fun c => x0 (ix2 r c)) k := by
  have el : ∀ c : Fin 32, lidx_main_v0 (ix2 r k) c = ix2 r c := fun c =>
    funext fun a => Fin.ext (by match a with | ⟨0, _⟩ => rfl | ⟨1, _⟩ => rfl)
  have er : ∀ c : Fin 32, ridx_main_v0 (ix2 r k) c = ix2 c k := fun c =>
    funext fun a => Fin.ext (by match a with | ⟨0, _⟩ => rfl | ⟨1, _⟩ => rfl)
  have eb : idx_main_v1 (idx_main_v2 (ix2 r k)) = ix1 k :=
    funext fun a => Fin.ext (by match a with | ⟨0, _⟩ => rfl)
  rw [val_main_v4_apply, val_main_v3_apply, val_main_v0_apply, val_main_v2_apply, val_main_v1_apply,
    val_main_call0_v0_apply, val_main_call0_cst_apply]
  simp only [el, er, eb, Ideal.maximumf_def, Ideal.addf_def, Ideal.ofBits_def, Ideal.ofBits_zero_f32]
  rfl

/-- The second rectified layer at `(r, j)`. -/
theorem feature_at (r : Fin 16384) (j : Fin 32) :
    val_main_v9 (F := Ideal) x0 x2 x3 x4 x5 (ix2 r j)
      = feature (w1 x2) (c1 x3) (w2 x4) (c2 x5) (fun c => x0 (ix2 r c)) j := by
  have el : ∀ k : Fin 4096, lidx_main_v5 (ix2 r j) k = ix2 r k := fun k =>
    funext fun a => Fin.ext (by match a with | ⟨0, _⟩ => rfl | ⟨1, _⟩ => rfl)
  have er : ∀ k : Fin 4096, ridx_main_v5 (ix2 r j) k = ix2 k j := fun k =>
    funext fun a => Fin.ext (by match a with | ⟨0, _⟩ => rfl | ⟨1, _⟩ => rfl)
  have eb : idx_main_v6 (idx_main_v7 (ix2 r j)) = ix1 j :=
    funext fun a => Fin.ext (by match a with | ⟨0, _⟩ => rfl)
  rw [val_main_v9_apply, val_main_v8_apply, val_main_v5_apply, val_main_v7_apply, val_main_v6_apply,
    val_main_call1_v0_apply, val_main_call1_cst_apply]
  simp only [el, er, eb, hidden_at, Ideal.maximumf_def, Ideal.addf_def, Ideal.ofBits_def, Ideal.ofBits_zero_f32]
  rfl

/-- The concatenation at `(r, j)`: the first feature row left of column 32, the second from there on. -/
theorem joined_at (r : Fin 16384) (j : Fin 64) :
    val_main_v20 (F := Ideal) x0 x1 x2 x3 x4 x5 (ix2 r j)
      = joined (feature (w1 x2) (c1 x3) (w2 x4) (c2 x5) (fun c => x0 (ix2 r c)))
          (feature (w1 x2) (c1 x3) (w2 x4) (c2 x5) (fun c => x1 (ix2 r c))) j := by
  unfold val_main_v20 joined
  split
  · next h =>
    rw [← feature_at]
    refine concatenate_pair_apply_left (t := S16384x64) (s₁ := S16384x32) (s₂ := S16384x32) (1 : Fin 2) _ _
      concatenates_S16384x32_S16384x32_S16384x64_d1 (ix2 r j) rfl
      (ix2 r (⟨j.val, h⟩ : Fin 32)) ?_
    intro b
    match b with
    | ⟨0, _⟩ => rfl
    | ⟨1, _⟩ => rfl
  · next h =>
    rw [← feature_at, ← second_feature]
    refine concatenate_pair_apply_right (t := S16384x64) (s₁ := S16384x32) (s₂ := S16384x32) (1 : Fin 2) _ _
      concatenates_S16384x32_S16384x32_S16384x64_d1 (ix2 r j) rfl rfl
      (ix2 r (⟨j.val - 32, by omega⟩ : Fin 32)) ?_ ?_
    · intro b hb
      match b, hb with
      | ⟨0, _⟩, _ => rfl
      | ⟨1, _⟩, hb => exact absurd (Fin.ext rfl) hb
    · show j.val - 32 + 32 = j.val
      omega

/-- The third rectified layer at `(r, k)`. -/
theorem third_at (r : Fin 16384) (k : Fin 4096) :
    val_main_v25 (F := Ideal) x0 x1 x2 x3 x4 x5 x6 x7 (ix2 r k)
      = max (∑ j : Fin 64, joined (feature (w1 x2) (c1 x3) (w2 x4) (c2 x5) (fun c => x0 (ix2 r c)))
          (feature (w1 x2) (c1 x3) (w2 x4) (c2 x5) (fun c => x1 (ix2 r c))) j * x6 (ix2 j k) + x7 (ix1 k)) 0 := by
  have el : ∀ j : Fin 64, lidx_main_v21 (ix2 r k) j = ix2 r j := fun j =>
    funext fun a => Fin.ext (by match a with | ⟨0, _⟩ => rfl | ⟨1, _⟩ => rfl)
  have er : ∀ j : Fin 64, ridx_main_v21 (ix2 r k) j = ix2 j k := fun j =>
    funext fun a => Fin.ext (by match a with | ⟨0, _⟩ => rfl | ⟨1, _⟩ => rfl)
  have eb : idx_main_v22 (idx_main_v23 (ix2 r k)) = ix1 k :=
    funext fun a => Fin.ext (by match a with | ⟨0, _⟩ => rfl)
  rw [val_main_v25_apply, val_main_v24_apply, val_main_v21_apply, val_main_v23_apply, val_main_v22_apply,
    val_main_call4_v0_apply, val_main_call4_cst_apply]
  simp only [el, er, eb, joined_at, Ideal.maximumf_def, Ideal.addf_def, Ideal.ofBits_def, Ideal.ofBits_zero_f32]

/-- THE REFERENCE'S RESULT is the specification of its ten arguments. -/
theorem result_eq :
    val_main_v29 (F := Ideal) x0 x1 x2 x3 x4 x5 x6 x7 x8 x9 = net x0 x1 x2 x3 x4 x5 x6 x7 x8 x9 := by
  funext i
  obtain ⟨r, a, rfl⟩ : ∃ (r : Fin 16384) (a : Fin 128), i = ix2 r a := ⟨i 0, i 1, eq_ix2 i⟩
  have el : ∀ k : Fin 4096, lidx_main_v26 (ix2 r a) k = ix2 r k := fun k =>
    funext fun b => Fin.ext (by match b with | ⟨0, _⟩ => rfl | ⟨1, _⟩ => rfl)
  have er : ∀ k : Fin 4096, ridx_main_v26 (ix2 r a) k = ix2 k a := fun k =>
    funext fun b => Fin.ext (by match b with | ⟨0, _⟩ => rfl | ⟨1, _⟩ => rfl)
  have eb : idx_main_v27 (idx_main_v28 (ix2 r a)) = ix1 a :=
    funext fun b => Fin.ext (by match b with | ⟨0, _⟩ => rfl)
  rw [val_main_v29_apply, val_main_v26_apply, val_main_v28_apply, val_main_v27_apply]
  simp only [el, er, eb, third_at, Ideal.addf_def]
  rfl

end Cert.ReferenceIdeal.RefValue

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.Body.lean ====
/-
  The kernel body's arithmetic, read at an index.

  The body stacks the two state blocks (512 rows each) into 1024 rows, so each of the first two layers is one
  matrix product; re-pairs rows `p` and `512 + p` of the result side by side with a column of ones; and runs the
  last two layers on 512 rows. The bias of the first layer is the last row (row 32) of its 33-row weight block,
  met by the constant one in column 32 of each state block; the bias of the third layer is the last row (row 64)
  of its 65-row weight block, met by the column of ones the body appends. Changes of float format are the
  identity at the ideal values.

  The payload is cut here into its layers as named vectors (`stacked`, `hiddenV`, `featureV`, `joinedV`,
  `thirdV`), and `pay2_eq` checks that the printed payload IS their composition. Each is then read at an index:
  a matrix product as a plain sum (`Cert.Lib.matmul_plain_zero_apply`), a sum whose last left factor is one as a
  sum plus a bias (`Cert.Mlp.sum_last_one`), so that row `p` of the block the body leaves is `Cert.Mlp.action`
  over `Cert.Mlp.feature` of row `p` of the two state blocks (`block_at`).
-/
import proofs.«139191_g11802570129985_cont_fleet_79_4_alg».proof.Proof.Gen.KernelIdeal.Value
import proofs.«139191_g11802570129985_cont_fleet_79_4_alg».proof.Proof.MlpSpec
import proofs.«139191_g11802570129985_cont_fleet_79_4_alg».proof.Proof.LibPlainMatmul
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.TcCoe
open Idealize.ShloMosaic.ValueIdx Cert.Mlp Cert.Lib

variable (v0 v2 : Vec Ideal S512x33 .bf16) (v5 : Vec Ideal S33x4096 .bf16) (v11 : Vec Ideal S4096x32 .bf16)
  (v14 : Vec Ideal S1x32 .f32) (v25 : Vec Ideal S65x4096 .bf16) (v31 : Vec Ideal S4096x128 .bf16)
  (v34 : Vec Ideal S1x128 .f32)

/-! ## The four products have plain dimension numbers -/

theorem dot1_eq : dot_S1024x33_S33x4096_S1024x4096_1_0_0_1_n_n = DotDims.plain 1024 33 4096 := rfl
theorem dot2_eq : dot_S1024x4096_S4096x32_S1024x32_1_0_0_1_n_n = DotDims.plain 1024 4096 32 := rfl
theorem dot3_eq : dot_S512x65_S65x4096_S512x4096_1_0_0_1_n_n = DotDims.plain 512 65 4096 := rfl
theorem dot4_eq : dot_S512x4096_S4096x128_S512x128_1_0_0_1_n_n = DotDims.plain 512 4096 128 := rfl

/-! ## The payload, layer by layer -/

/-- The two state blocks, one above the other. -/
def stacked : FVec Ideal S1024x33 .bf16 :=
  concatenate S1024x33 0 [⟨S512x33, (shapeCast S512x33 v0 shapeCasts_S512x33_S512x33 : FVec Ideal S512x33 .bf16)⟩,
    ⟨S512x33, (shapeCast S512x33 v2 shapeCasts_S512x33_S512x33 : FVec Ideal S512x33 .bf16)⟩] concatenates_S512x33_S512x33_S1024x33_d0

/-- First layer, rectified, on the 1024 stacked rows. -/
def hiddenV : FVec Ideal S1024x4096 .bf16 :=
  truncf .bf16 (maximumf (matmul dot_S1024x33_S33x4096_S1024x4096_1_0_0_1_n_n none (stacked v0 v2)
      (shapeCast S33x4096 v5 shapeCasts_S33x4096_S33x4096 : FVec Ideal S33x4096 .bf16) (constant (F := Ideal) S1024x4096 .f32 0x00000000#32))
    (broadcast S1024x4096 (Scalar.ofBits (F := Ideal) .f32 0x00000000#32))) bitsLt_bf16_f32

/-- Second layer, rectified, on the 1024 stacked rows. -/
def featureV : FVec Ideal S1024x32 .f32 :=
  maximumf (addf (matmul dot_S1024x4096_S4096x32_S1024x32_1_0_0_1_n_n none (hiddenV v0 v2 v5)
        (shapeCast S4096x32 v11 shapeCasts_S4096x32_S4096x32 : FVec Ideal S4096x32 .bf16) (constant (F := Ideal) S1024x32 .f32 0x00000000#32))
      (broadcastTo S1024x32 (shapeCast S1x32 v14 shapeCasts_S1x32_S1x32 : FVec Ideal S1x32 .f32) broadcasts_S1x32_S1024x32))
    (broadcast S1024x32 (Scalar.ofBits (F := Ideal) .f32 0x00000000#32))

/-- The three pieces of a re-paired row: the upper 512 feature rows, the lower 512, a column of ones. -/
abbrev pieces : List ((s : Shape) × (s.Idx → Ideal .f32)) :=
  [⟨S512x32, extractStridedSlice S512x32 ![0, 0] (featureV v0 v2 v5 v11 v14) slices_S1024x32_o0_0_S512x32⟩,
    ⟨S512x32, extractStridedSlice S512x32 ![512, 0] (featureV v0 v2 v5 v11 v14) slices_S1024x32_o512_0_S512x32⟩,
    ⟨S512x1, broadcast S512x1 (Scalar.ofBits (F := Ideal) .f32 0x3F800000#32)⟩]

/-- Rows `p` and `512 + p` of the features side by side, then a column of ones. -/
def joinedV : FVec Ideal S512x65 .bf16 :=
  truncf .bf16 (concatenate S512x65 1 (pieces v0 v2 v5 v11 v14)
      concatenates_S512x32_S512x32_S512x1_S512x65_d1) bitsLt_bf16_f32

/-- Third layer, rectified, on the 512 re-paired rows. -/
def thirdV : FVec Ideal S512x4096 .bf16 :=
  truncf .bf16 (maximumf (matmul dot_S512x65_S65x4096_S512x4096_1_0_0_1_n_n none (joinedV v0 v2 v5 v11 v14)
      (shapeCast S65x4096 v25 shapeCasts_S65x4096_S65x4096 : FVec Ideal S65x4096 .bf16) (constant (F := Ideal) S512x4096 .f32 0x00000000#32))
    (broadcast S512x4096 (Scalar.ofBits (F := Ideal) .f32 0x00000000#32))) bitsLt_bf16_f32

/-- The printed payload is the last product over these layers. -/
theorem pay2_eq : k0_pay2 (F := Ideal) v0 v2 v5 v11 v14 v25 v31
    = matmul dot_S512x4096_S4096x128_S512x128_1_0_0_1_n_n none (thirdV v0 v2 v5 v11 v14 v25)
        (shapeCast S4096x128 v31 shapeCasts_S4096x128_S4096x128 : FVec Ideal S4096x128 .bf16) (constant (F := Ideal) S512x128 .f32 0x00000000#32) := rfl

/-! ## Each layer read at an index -/

/-- The upper half of the stacked rows is the first state block. -/
theorem stacked_top (p : Fin 512) (i : Fin 33) :
    stacked v0 v2 (ix2 (⟨p.val, by have := p.isLt; omega⟩ : Fin 1024) i) = v0 (ix2 p i) := by
  unfold stacked
  rw [shapeCast_self, shapeCast_self]
  refine concatenate_pair_apply_left (t := S1024x33) (s₁ := S512x33) (s₂ := S512x33) (0 : Fin 2) _ _
    concatenates_S512x33_S512x33_S1024x33_d0 _ rfl (ix2 p i) ?_
  intro b
  match b with
  | ⟨0, _⟩ => rfl
  | ⟨1, _⟩ => rfl

/-- The lower half of the stacked rows is the second state block. -/
theorem stacked_bot (p : Fin 512) (i : Fin 33) :
    stacked v0 v2 (ix2 (⟨512 + p.val, by have := p.isLt; omega⟩ : Fin 1024) i) = v2 (ix2 p i) := by
  unfold stacked
  rw [shapeCast_self, shapeCast_self]
  refine concatenate_pair_apply_right (t := S1024x33) (s₁ := S512x33) (s₂ := S512x33) (0 : Fin 2) _ _
    concatenates_S512x33_S512x33_S1024x33_d0 _ rfl rfl (ix2 p i) ?_ ?_
  · intro b hb
    match b, hb with
    | ⟨0, _⟩, hb => exact absurd (Fin.ext rfl) hb
    | ⟨1, _⟩, _ => rfl
  · show p.val + 512 = 512 + p.val
    omega

/-- The first layer at row `q`, column `k`: the rectified sum over the 33 columns of the stacked row. -/
theorem hiddenV_at (q : Fin 1024) (k : Fin 4096) :
    hiddenV v0 v2 v5 (ix2 q k) = max (∑ i : Fin 33, stacked v0 v2 (ix2 q i) * v5 (ix2 i k)) 0 := by
  show max (FloatOps.matmul dot_S1024x33_S33x4096_S1024x4096_1_0_0_1_n_n none (stacked v0 v2)
      (shapeCast S33x4096 v5 shapeCasts_S33x4096_S33x4096 : FVec Ideal S33x4096 .bf16)
      (constant (F := Ideal) S1024x4096 .f32 0x00000000#32) (ix2 q k)) (Ideal.ofBits .f32 0x00000000#32) = _
  rw [dot1_eq, matmul_plain_zero_apply, shapeCast_self, Ideal.ofBits_zero_f32]

/-- The second layer at row `q`, column `j`. -/
theorem featureV_at (q : Fin 1024) (j : Fin 32) :
    featureV v0 v2 v5 v11 v14 (ix2 q j)
      = max (∑ k : Fin 4096, hiddenV v0 v2 v5 (ix2 q k) * v11 (ix2 k j) + v14 (ix2 (0 : Fin 1) j)) 0 := by
  show max (FloatOps.matmul dot_S1024x4096_S4096x32_S1024x32_1_0_0_1_n_n none (hiddenV v0 v2 v5)
      (shapeCast S4096x32 v11 shapeCasts_S4096x32_S4096x32 : FVec Ideal S4096x32 .bf16)
      (constant (F := Ideal) S1024x32 .f32 0x00000000#32) (ix2 q j)
    + broadcastTo S1024x32 (shapeCast S1x32 v14 shapeCasts_S1x32_S1x32 : FVec Ideal S1x32 .f32) broadcasts_S1x32_S1024x32 (ix2 q j))
    (Ideal.ofBits .f32 0x00000000#32) = _
  rw [dot2_eq, matmul_plain_zero_apply, shapeCast_self, shapeCast_self, Ideal.ofBits_zero_f32,
    broadcastTo_apply v14 broadcasts_S1x32_S1024x32 (ix2 q j) (ix2 (0 : Fin 1) j) (fun a => match a with
      | ⟨0, _⟩ => by show (0 : ℕ) = if (1 : ℕ) = 1 then 0 else _; rw [if_pos rfl]
      | ⟨1, _⟩ => by show j.val = if (32 : ℕ) = 1 then 0 else j.val; rw [if_neg (by decide)])]

/-- The re-paired row `p`, left of the column of ones: the features of rows `p` and `512 + p` side by side. -/
theorem joinedV_castSucc (p : Fin 512) (j : Fin 64) :
    joinedV v0 v2 v5 v11 v14 (ix2 p j.castSucc)
      = joined (fun c => featureV v0 v2 v5 v11 v14 (ix2 (⟨p.val, by have := p.isLt; omega⟩ : Fin 1024) c))
          (fun c => featureV v0 v2 v5 v11 v14 (ix2 (⟨512 + p.val, by have := p.isLt; omega⟩ : Fin 1024) c)) j := by
  unfold joinedV joined
  rw [truncf_apply]
  split
  · next h =>
    refine (concatenate_apply_piece (t := S512x65) (1 : Fin 2) (pieces v0 v2 v5 v11 v14) concatenates_S512x32_S512x32_S512x1_S512x65_d1
      (ix2 p j.castSucc) 0 (by show (0 : ℕ) < 3; omega) S512x32 _ rfl rfl 0 rfl (ix2 p (⟨j.val, h⟩ : Fin 32)) ?_ ?_).trans ?_
    · intro b hb
      match b, hb with
      | ⟨0, _⟩, _ => rfl
      | ⟨1, _⟩, hb => exact absurd (Fin.ext rfl) hb
    · show 0 + j.val = j.val
      omega
    · refine extractStridedSlice_apply _ _ slices_S1024x32_o0_0_S512x32 _ _ ?_
      intro a
      match a with
      | ⟨0, _⟩ => show p.val = 0 + p.val; omega
      | ⟨1, _⟩ => show j.val = 0 + j.val; omega
  · next h =>
    have hj := j.isLt
    refine (concatenate_apply_piece (t := S512x65) (1 : Fin 2) (pieces v0 v2 v5 v11 v14) concatenates_S512x32_S512x32_S512x1_S512x65_d1
      (ix2 p j.castSucc) 1 (by show (1 : ℕ) < 3; omega) S512x32 _ rfl rfl 32 rfl (ix2 p (⟨j.val - 32, by omega⟩ : Fin 32)) ?_ ?_).trans ?_
    · intro b hb
      match b, hb with
      | ⟨0, _⟩, _ => rfl
      | ⟨1, _⟩, hb => exact absurd (Fin.ext rfl) hb
    · show 32 + (j.val - 32) = j.val
      omega
    · refine extractStridedSlice_apply _ _ slices_S1024x32_o512_0_S512x32 _ _ ?_
      intro a
      match a with
      | ⟨0, _⟩ => show 512 + p.val = 512 + p.val; rfl
      | ⟨1, _⟩ => show j.val - 32 = 0 + (j.val - 32); omega

/-- The re-paired row's last column is the constant one. -/
theorem joinedV_last (p : Fin 512) : joinedV v0 v2 v5 v11 v14 (ix2 p (Fin.last 64)) = 1 := by
  unfold joinedV
  rw [truncf_apply]
  refine (concatenate_apply_piece (t := S512x65) (1 : Fin 2) (pieces v0 v2 v5 v11 v14) concatenates_S512x32_S512x32_S512x1_S512x65_d1
    (ix2 p (Fin.last 64)) 2 (by show (2 : ℕ) < 3; omega) S512x1 _ rfl rfl 64 rfl (ix2 p (0 : Fin 1)) ?_ ?_).trans ?_
  · intro b hb
    match b, hb with
    | ⟨0, _⟩, _ => rfl
    | ⟨1, _⟩, hb => exact absurd (Fin.ext rfl) hb
  · rfl
  · exact ofBits_one_f32

/-- The third layer at row `p`, column `k`: the rectified sum over the 65 columns of the re-paired row. -/
theorem thirdV_at (p : Fin 512) (k : Fin 4096) :
    thirdV v0 v2 v5 v11 v14 v25 (ix2 p k)
      = max (∑ j : Fin 65, joinedV v0 v2 v5 v11 v14 (ix2 p j) * v25 (ix2 j k)) 0 := by
  show max (FloatOps.matmul dot_S512x65_S65x4096_S512x4096_1_0_0_1_n_n none (joinedV v0 v2 v5 v11 v14)
      (shapeCast S65x4096 v25 shapeCasts_S65x4096_S65x4096 : FVec Ideal S65x4096 .bf16)
      (constant (F := Ideal) S512x4096 .f32 0x00000000#32) (ix2 p k)) (Ideal.ofBits .f32 0x00000000#32) = _
  rw [dot3_eq, matmul_plain_zero_apply, shapeCast_self, Ideal.ofBits_zero_f32]

/-- The payload at row `p`, column `a`: the last product. -/
theorem pay2_at (p : Fin 512) (a : Fin 128) :
    k0_pay2 (F := Ideal) v0 v2 v5 v11 v14 v25 v31 (ix2 p a)
      = ∑ k : Fin 4096, thirdV v0 v2 v5 v11 v14 v25 (ix2 p k) * v31 (ix2 k a) := by
  rw [pay2_eq]
  show FloatOps.matmul dot_S512x4096_S4096x128_S512x128_1_0_0_1_n_n none (thirdV v0 v2 v5 v11 v14 v25)
      (shapeCast S4096x128 v31 shapeCasts_S4096x128_S4096x128 : FVec Ideal S4096x128 .bf16)
      (constant (F := Ideal) S512x128 .f32 0x00000000#32) (ix2 p a) = _
  rw [dot4_eq, matmul_plain_zero_apply, shapeCast_self]

/-! ## A row of the block the body leaves

The weight blocks as functions of plain coordinates: rows 0–31 of the first weight block are the first layer's
weights and row 32 its bias; rows 0–63 of the third are the third layer's weights and row 64 its bias. -/

abbrev w1 : Fin 32 → Fin 4096 → EReal := fun c k => v5 (ix2 c.castSucc k)
abbrev c1 : Fin 4096 → EReal := fun k => v5 (ix2 (Fin.last 32) k)
abbrev w2 : Fin 4096 → Fin 32 → EReal := fun k j => v11 (ix2 k j)
abbrev c2 : Fin 32 → EReal := fun j => v14 (ix2 (0 : Fin 1) j)
abbrev w3 : Fin 64 → Fin 4096 → EReal := fun j k => v25 (ix2 j.castSucc k)
abbrev c3 : Fin 4096 → EReal := fun k => v25 (ix2 (Fin.last 64) k)
abbrev w4 : Fin 4096 → Fin 128 → EReal := fun k a => v31 (ix2 k a)
abbrev c4 : Fin 128 → EReal := fun a => v34 (ix2 (0 : Fin 1) a)

/-- A stacked row whose first 32 entries are `x` and whose last is one: the first layer is `hidden` of `x`,
    the row of the weight block under the one coming out as the bias. -/
theorem hidden_row (q : Fin 1024) (x : Fin 32 → EReal) (hx : ∀ c : Fin 32, stacked v0 v2 (ix2 q c.castSucc) = x c)
    (h1 : stacked v0 v2 (ix2 q (Fin.last 32)) = 1) (k : Fin 4096) :
    hiddenV v0 v2 v5 (ix2 q k) = hidden (w1 v5) (c1 v5) x k := by
  have e := sum_last_one (fun i => stacked v0 v2 (ix2 q i)) (fun i => v5 (ix2 i k)) h1
  rw [hiddenV_at, e]
  simp only [hx]
  rfl

/-- The second layer of such a row is `feature` of `x`. -/
theorem feature_row (q : Fin 1024) (x : Fin 32 → EReal) (hx : ∀ c : Fin 32, stacked v0 v2 (ix2 q c.castSucc) = x c)
    (h1 : stacked v0 v2 (ix2 q (Fin.last 32)) = 1) (j : Fin 32) :
    featureV v0 v2 v5 v11 v14 (ix2 q j) = feature (w1 v5) (c1 v5) (w2 v11) (c2 v14) x j := by
  rw [featureV_at]
  simp only [hidden_row v0 v2 v5 q x hx h1]
  rfl

section Ones
variable (h0 : ∀ p : Fin 512, v0 (ix2 p (Fin.last 32)) = 1) (h2 : ∀ p : Fin 512, v2 (ix2 p (Fin.last 32)) = 1)
include h0 h2

/-- The third layer at row `p`, when each state block ends in a column of ones: the joined features of row `p` of
    the two blocks against the first 64 rows of the third weight block, its last row the bias. -/
theorem third_row (p : Fin 512) (k : Fin 4096) :
    thirdV v0 v2 v5 v11 v14 v25 (ix2 p k)
      = max (∑ j : Fin 64, joined (feature (w1 v5) (c1 v5) (w2 v11) (c2 v14) (fun c => v0 (ix2 p c.castSucc)))
          (feature (w1 v5) (c1 v5) (w2 v11) (c2 v14) (fun c => v2 (ix2 p c.castSucc))) j * w3 v25 j k + c3 v25 k) 0 := by
  have e := sum_last_one (fun j => joinedV v0 v2 v5 v11 v14 (ix2 p j)) (fun j => v25 (ix2 j k))
    (joinedV_last v0 v2 v5 v11 v14 p)
  have ft : (fun c => featureV v0 v2 v5 v11 v14 (ix2 (⟨p.val, by have := p.isLt; omega⟩ : Fin 1024) c))
      = feature (w1 v5) (c1 v5) (w2 v11) (c2 v14) (fun c => v0 (ix2 p c.castSucc)) :=
    funext fun c => feature_row v0 v2 v5 v11 v14 _ _ (fun c' => stacked_top v0 v2 p c'.castSucc)
      ((stacked_top v0 v2 p _).trans (h0 p)) c
  have fb : (fun c => featureV v0 v2 v5 v11 v14 (ix2 (⟨512 + p.val, by have := p.isLt; omega⟩ : Fin 1024) c))
      = feature (w1 v5) (c1 v5) (w2 v11) (c2 v14) (fun c => v2 (ix2 p c.castSucc)) :=
    funext fun c => feature_row v0 v2 v5 v11 v14 _ _ (fun c' => stacked_bot v0 v2 p c'.castSucc)
      ((stacked_bot v0 v2 p _).trans (h2 p)) c
  rw [thirdV_at, e]
  simp only [joinedV_castSucc, ft, fb]

/-- ROW `p` OF THE BLOCK THE BODY LEAVES is the network of row `p` of the two state blocks. -/
theorem block_at (p : Fin 512) (a : Fin 128) :
    Cert.KernelIdeal.Value.E8 (F := Ideal) v0 v2 v5 v11 v14 v25 v31 v34 (ix2 p a)
      = action (w3 v25) (c3 v25) (w4 v31) (c4 v34)
          (feature (w1 v5) (c1 v5) (w2 v11) (c2 v14) (fun c => v0 (ix2 p c.castSucc)))
          (feature (w1 v5) (c1 v5) (w2 v11) (c2 v14) (fun c => v2 (ix2 p c.castSucc))) a := by
  have e0 : Cert.KernelIdeal.Value.ix8_0 (ix2 p a) = ix2 p a :=
    funext fun b => Fin.ext (by match b with | ⟨0, _⟩ => rfl | ⟨1, _⟩ => rfl)
  have e1 : Cert.KernelIdeal.Value.ix8_1 (ix2 p a) = ix2 (0 : Fin 1) a :=
    funext fun b => Fin.ext (by match b with | ⟨0, _⟩ => rfl | ⟨1, _⟩ => rfl)
  show k0_pay2 (F := Ideal) v0 v2 v5 v11 v14 v25 v31 (Cert.KernelIdeal.Value.ix8_0 (ix2 p a))
    + v34 (Cert.KernelIdeal.Value.ix8_1 (ix2 p a)) = _
  rw [e0, e1, pay2_at]
  simp only [third_row v0 v2 v5 v11 v14 v25 h0 h2]
  rfl

end Ones

end Cert.KernelIdeal.Body

end
-- ==== Proof.Augmented.lean ====
/-
  What the region finds in each window's array, read at an index.

  Before the region the program appends a column of ones to each state array (33 columns), appends the first
  layer's bias to its weights as a 33rd row and the third layer's bias to its weights as a 65th row, changes the
  four weight arrays' float format (the identity at the ideal values), and views the other two biases as one-row
  arrays. So, at an index: columns 0–31 of an augmented state array are the state array's and column 32 is the
  constant one; rows 0–31 (0–63) of an augmented weight array are the weights' and the last row is the bias.
-/
import proofs.«139191_g11802570129985_cont_fleet_79_4_alg».proof.Proof.Gen.KernelIdeal.Value
import proofs.«139191_g11802570129985_cont_fleet_79_4_alg».proof.Proof.MlpSpec
import Idealize.ShloMosaic.Lib.StableHlo.Run
import Idealize.ShloMosaic.Lib.Pipeline.Value
import Idealize.ShloMosaic.Lib.ValueIdx

noncomputable section

namespace Cert.KernelIdeal.Aug

open Cert.KernelIdeal Cert.KernelIdeal.Gen Idealize.ShloMosaic Idealize.ShloMosaic.TcCoe Idealize.SL.Sem
open Idealize.ShloMosaic.ValueIdx Idealize.ShloMosaic.StableHlo Cert.Mlp

/-! ## The two concatenations, over any operands -/

/-- A column appended on the right: left of it, the array. -/
theorem withCol_castSucc (X : FVec Ideal S16384x32 .f32) (Y : FVec Ideal S16384x1 .f32) (r : Fin 16384) (i : Fin 32) :
    concatenate S16384x33 1 [⟨S16384x32, X⟩, ⟨S16384x1, Y⟩] concatenates_S16384x32_S16384x1_S16384x33_d1 (ix2 r i.castSucc)
      = X (ix2 r i) := by
  refine concatenate_pair_apply_left (t := S16384x33) (s₁ := S16384x32) (s₂ := S16384x1) (1 : Fin 2) _ _
    concatenates_S16384x32_S16384x1_S16384x33_d1 _ rfl (ix2 r i) ?_
  intro b
  match b with
  | ⟨0, _⟩ => rfl
  | ⟨1, _⟩ => rfl

/-- A column appended on the right: the last column is the appended one. -/
theorem withCol_last (X : FVec Ideal S16384x32 .f32) (Y : FVec Ideal S16384x1 .f32) (r : Fin 16384) :
    concatenate S16384x33 1 [⟨S16384x32, X⟩, ⟨S16384x1, Y⟩] concatenates_S16384x32_S16384x1_S16384x33_d1 (ix2 r (Fin.last 32))
      = Y (ix2 r (0 : Fin 1)) := by
  refine concatenate_pair_apply_right (t := S16384x33) (s₁ := S16384x32) (s₂ := S16384x1) (1 : Fin 2) _ _
    concatenates_S16384x32_S16384x1_S16384x33_d1 _ rfl rfl (ix2 r (0 : Fin 1)) ?_ ?_
  · intro b hb
    match b, hb with
    | ⟨0, _⟩, _ => rfl
    | ⟨1, _⟩, hb => exact absurd (Fin.ext rfl) hb
  · rfl

/-- A row appended below a 32-row array: above it, the array. -/
theorem withRow32_castSucc (W : FVec Ideal S32x4096 .f32) (B : FVec Ideal S1x4096 .f32) (i : Fin 32) (k : Fin 4096) :
    concatenate S33x4096 0 [⟨S32x4096, W⟩, ⟨S1x4096, B⟩] concatenates_S32x4096_S1x4096_S33x4096_d0 (ix2 i.castSucc k)
      = W (ix2 i k) := by
  refine concatenate_pair_apply_left (t := S33x4096) (s₁ := S32x4096) (s₂ := S1x4096) (0 : Fin 2) _ _
    concatenates_S32x4096_S1x4096_S33x4096_d0 _ rfl (ix2 i k) ?_
  intro b
  match b with
  | ⟨0, _⟩ => rfl
  | ⟨1, _⟩ => rfl

/-- A row appended below a 32-row array: the last row is the appended one. -/
theorem withRow32_last (W : FVec Ideal S32x4096 .f32) (B : FVec Ideal S1x4096 .f32) (k : Fin 4096) :
    concatenate S33x4096 0 [⟨S32x4096, W⟩, ⟨S1x4096, B⟩] concatenates_S32x4096_S1x4096_S33x4096_d0 (ix2 (Fin.last 32) k)
      = B (ix2 (0 : Fin 1) k) := by
  refine concatenate_pair_apply_right (t := S33x4096) (s₁ := S32x4096) (s₂ := S1x4096) (0 : Fin 2) _ _
    concatenates_S32x4096_S1x4096_S33x4096_d0 _ rfl rfl (ix2 (0 : Fin 1) k) ?_ ?_
  · intro b hb
    match b, hb with
    | ⟨0, _⟩, hb => exact absurd (Fin.ext rfl) hb
    | ⟨1, _⟩, _ => rfl
  · rfl

/-- A row appended below a 64-row array: above it, the array. -/
theorem withRow64_castSucc (W : FVec Ideal S64x4096 .f32) (B : FVec Ideal S1x4096 .f32) (j : Fin 64) (k : Fin 4096) :
    concatenate S65x4096 0 [⟨S64x4096, W⟩, ⟨S1x4096, B⟩] concatenates_S64x4096_S1x4096_S65x4096_d0 (ix2 j.castSucc k)
      = W (ix2 j k) := by
  refine concatenate_pair_apply_left (t := S65x4096) (s₁ := S64x4096) (s₂ := S1x4096) (0 : Fin 2) _ _
    concatenates_S64x4096_S1x4096_S65x4096_d0 _ rfl (ix2 j k) ?_
  intro b
  match b with
  | ⟨0, _⟩ => rfl
  | ⟨1, _⟩ => rfl

/-- A row appended below a 64-row array: the last row is the appended one. -/
theorem withRow64_last (W : FVec Ideal S64x4096 .f32) (B : FVec Ideal S1x4096 .f32) (k : Fin 4096) :
    concatenate S65x4096 0 [⟨S64x4096, W⟩, ⟨S1x4096, B⟩] concatenates_S64x4096_S1x4096_S65x4096_d0 (ix2 (Fin.last 64) k)
      = B (ix2 (0 : Fin 1) k) := by
  refine concatenate_pair_apply_right (t := S65x4096) (s₁ := S64x4096) (s₂ := S1x4096) (0 : Fin 2) _ _
    concatenates_S64x4096_S1x4096_S65x4096_d0 _ rfl rfl (ix2 (0 : Fin 1) k) ?_ ?_
  · intro b hb
    match b, hb with
    | ⟨0, _⟩, hb => exact absurd (Fin.ext rfl) hb
    | ⟨1, _⟩, _ => rfl
  · rfl

/-- A bias viewed as a one-row array, at `(0, k)`. -/
theorem asRow_apply (B : FVec Ideal S4096 .f32) (k : Fin 4096) :
    broadcastInDim S1x4096 ![1] bcast_S4096_S1x4096_1 B (ix2 (0 : Fin 1) k) = B (ix1 k) :=
  broadcastInDim_apply _ bcast_S4096_S1x4096_1 B _ (ix1 k) (fun a => match a with
    | ⟨0, _⟩ => by show k.val = if (4096 : ℕ) = 1 then 0 else k.val; rw [if_neg (by decide)])

/-- The column of ones, at any row. -/
theorem ones_apply (r : Fin 16384) :
    broadcastInDim S16384x1 ![] bcast_S_S16384x1 (constant (F := Ideal) S_ .f32 0x3F800000#32) (ix2 r (0 : Fin 1)) = 1 :=
  (broadcastInDim_apply _ bcast_S_S16384x1 (constant (F := Ideal) S_ .f32 0x3F800000#32) _ ix0 (fun a => a.elim0)).trans
    ofBits_one_f32

/-! ## The arrays as the region finds them -/

variable (m : (ℓ : Loc nD τ sig) → Buf (Elt Ideal) ℓ)

theorem state_eq (c : Dev nD) : (V m c main_v2 : S16384x33.Idx → EReal)
    = truncf .bf16 (concatenate S16384x33 1 [⟨S16384x32, m ((c : Thread nD τ).loc main_arg0)⟩,
        ⟨S16384x1, broadcastInDim S16384x1 ![] bcast_S_S16384x1 (constant (F := Ideal) S_ .f32 0x3F800000#32)⟩]
        concatenates_S16384x32_S16384x1_S16384x33_d1) bitsLt_bf16_f32 := by
  dsimp only [Gen.V, Gen.hostOps0]; after_results

theorem next_eq (c : Dev nD) : (V m c main_v4 : S16384x33.Idx → EReal)
    = truncf .bf16 (concatenate S16384x33 1 [⟨S16384x32, m ((c : Thread nD τ).loc main_arg1)⟩,
        ⟨S16384x1, broadcastInDim S16384x1 ![] bcast_S_S16384x1 (constant (F := Ideal) S_ .f32 0x3F800000#32)⟩]
        concatenates_S16384x32_S16384x1_S16384x33_d1) bitsLt_bf16_f32 := by
  dsimp only [Gen.V, Gen.hostOps0]; after_results

theorem weights1_eq (c : Dev nD) : (V m c main_v7 : S33x4096.Idx → EReal)
    = truncf (F := Ideal) .bf16 (concatenate S33x4096 0 [⟨S32x4096, m ((c : Thread nD τ).loc main_arg2)⟩,
        ⟨S1x4096, broadcastInDim S1x4096 ![1] bcast_S4096_S1x4096_1 (m ((c : Thread nD τ).loc main_arg3))⟩]
        concatenates_S32x4096_S1x4096_S33x4096_d0) bitsLt_bf16_f32 := by
  dsimp only [Gen.V, Gen.hostOps0]; after_results

theorem weights3_eq (c : Dev nD) : (V m c main_v10 : S65x4096.Idx → EReal)
    = truncf (F := Ideal) .bf16 (concatenate S65x4096 0 [⟨S64x4096, m ((c : Thread nD τ).loc main_arg6)⟩,
        ⟨S1x4096, broadcastInDim S1x4096 ![1] bcast_S4096_S1x4096_1 (m ((c : Thread nD τ).loc main_arg7))⟩]
        concatenates_S64x4096_S1x4096_S65x4096_d0) bitsLt_bf16_f32 := by
  dsimp only [Gen.V, Gen.hostOps0]; after_results

theorem weights2_eq (c : Dev nD) : (V m c main_v11 : S4096x32.Idx → EReal)
    = truncf (F := Ideal) .bf16 (m ((c : Thread nD τ).loc main_arg4) : FVec Ideal S4096x32 .f32) bitsLt_bf16_f32 := by
  dsimp only [Gen.V, Gen.hostOps0]; after_results

theorem weights4_eq (c : Dev nD) : (V m c main_v12 : S4096x128.Idx → EReal)
    = truncf (F := Ideal) .bf16 (m ((c : Thread nD τ).loc main_arg8) : FVec Ideal S4096x128 .f32) bitsLt_bf16_f32 := by
  dsimp only [Gen.V, Gen.hostOps0]; after_results

theorem bias2_eq (c : Dev nD) : (V m c main_v13 : S1x32.Idx → EReal)
    = shapeCast S1x32 (m ((c : Thread nD τ).loc main_arg5) : FVec Ideal S32 .f32) shapeCasts_S32_S1x32 := by
  dsimp only [Gen.V, Gen.hostOps0]; after_results; rfl

theorem bias4_eq (c : Dev nD) : (V m c main_v14 : S1x128.Idx → EReal)
    = shapeCast S1x128 (m ((c : Thread nD τ).loc main_arg9) : FVec Ideal S128 .f32) shapeCasts_S128_S1x128 := by
  dsimp only [Gen.V, Gen.hostOps0]; after_results; rfl

/-! ## … read at an index -/

theorem state_castSucc (c : Dev nD) (r : Fin 16384) (i : Fin 32) :
    V m c main_v2 (ix2 r i.castSucc) = m ((c : Thread nD τ).loc main_arg0) (ix2 r i) := by
  rw [state_eq]; exact withCol_castSucc _ _ r i
theorem state_last (c : Dev nD) (r : Fin 16384) : V m c main_v2 (ix2 r (Fin.last 32)) = (1 : EReal) := by
  rw [state_eq, truncf_apply]
  refine Eq.trans ?_ (ones_apply r)
  exact withCol_last _ _ r
theorem next_castSucc (c : Dev nD) (r : Fin 16384) (i : Fin 32) :
    V m c main_v4 (ix2 r i.castSucc) = m ((c : Thread nD τ).loc main_arg1) (ix2 r i) := by
  rw [next_eq]; exact withCol_castSucc _ _ r i
theorem next_last (c : Dev nD) (r : Fin 16384) : V m c main_v4 (ix2 r (Fin.last 32)) = (1 : EReal) := by
  rw [next_eq, truncf_apply]
  refine Eq.trans ?_ (ones_apply r)
  exact withCol_last _ _ r
theorem weights1_castSucc (c : Dev nD) (i : Fin 32) (k : Fin 4096) :
    V m c main_v7 (ix2 i.castSucc k) = m ((c : Thread nD τ).loc main_arg2) (ix2 i k) := by
  rw [weights1_eq]; exact withRow32_castSucc _ _ i k
theorem weights1_last (c : Dev nD) (k : Fin 4096) :
    V m c main_v7 (ix2 (Fin.last 32) k) = m ((c : Thread nD τ).loc main_arg3) (ix1 k) := by
  rw [weights1_eq, truncf_apply]
  refine Eq.trans ?_ (asRow_apply (m ((c : Thread nD τ).loc main_arg3)) k)
  exact withRow32_last _ _ k
theorem weights3_castSucc (c : Dev nD) (j : Fin 64) (k : Fin 4096) :
    V m c main_v10 (ix2 j.castSucc k) = m ((c : Thread nD τ).loc main_arg6) (ix2 j k) := by
  rw [weights3_eq]; exact withRow64_castSucc _ _ j k
theorem weights3_last (c : Dev nD) (k : Fin 4096) :
    V m c main_v10 (ix2 (Fin.last 64) k) = m ((c : Thread nD τ).loc main_arg7) (ix1 k) := by
  rw [weights3_eq, truncf_apply]
  refine Eq.trans ?_ (asRow_apply (m ((c : Thread nD τ).loc main_arg7)) k)
  exact withRow64_last _ _ k
theorem weights2_apply (c : Dev nD) (k : Fin 4096) (j : Fin 32) :
    V m c main_v11 (ix2 k j) = m ((c : Thread nD τ).loc main_arg4) (ix2 k j) := by
  rw [weights2_eq]; rfl
theorem weights4_apply (c : Dev nD) (k : Fin 4096) (a : Fin 128) :
    V m c main_v12 (ix2 k a) = m ((c : Thread nD τ).loc main_arg8) (ix2 k a) := by
  rw [weights4_eq]; rfl
theorem bias2_apply (c : Dev nD) (j : Fin 32) :
    V m c main_v13 (ix2 (0 : Fin 1) j) = m ((c : Thread nD τ).loc main_arg5) (ix1 j) := by
  rw [bias2_eq]
  exact shapeCast_apply _ shapeCasts_S32_S1x32 _ (ix1 j) (by
    rw [Shape.rowMajor_val_one, Shape.rowMajor_val_two]; show j.val = 0 * 32 + j.val; omega)
theorem bias4_apply (c : Dev nD) (a : Fin 128) :
    V m c main_v14 (ix2 (0 : Fin 1) a) = m ((c : Thread nD τ).loc main_arg9) (ix1 a) := by
  rw [bias4_eq]
  exact shapeCast_apply _ shapeCasts_S128_S1x128 _ (ix1 a) (by
    rw [Shape.rowMajor_val_one, Shape.rowMajor_val_two]; show a.val = 0 * 128 + a.val; omega)

end Cert.KernelIdeal.Aug

end
-- ==== Proof.Whole.lean ====
/-
  From blocks to the array: the kernel's result array is `Cert.Mlp.net` of the ten arguments.

  The grid has 32 points. At point `t` the two state windows and the output window hold rows `512 t … 512 t + 511`
  of their arrays, and each of the six weight and bias windows holds its whole array (index maps decided over the
  grid: `idx_facts`). So row `p` of the block the body leaves at point `t` (`Body.block_at`) is the network of row
  `512 t + p` of the two augmented state arrays over the augmented weights, which is `net` at row `512 t + p`
  (`Aug`: the appended column is one, the appended rows are the biases). The 32 blocks tile the 16384 rows, so the
  array ends holding `net` everywhere.
-/
import proofs.«139191_g11802570129985_cont_fleet_79_4_alg».proof.Proof.Gen.KernelIdeal.Value
import proofs.«139191_g11802570129985_cont_fleet_79_4_alg».proof.Proof.MlpSpec
import proofs.«139191_g11802570129985_cont_fleet_79_4_alg».proof.Proof.Body
import proofs.«139191_g11802570129985_cont_fleet_79_4_alg».proof.Proof.Augmented

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

/-- The result array the kernel is to leave: the specification of the ten arguments as launched. -/
abbrev result (c : Dev nD) : S16384x128.Idx → EReal :=
  net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem zeros : (![0, 0] : Fin 2 → Nat) = fun _ => 0 := funext fun a => by fin_cases a <;> rfl

/-! ## Where each window's block lies -/

/-- The printed index maps, decided over the 32 grid points: the state and output windows follow the point along
    the rows; the weight and bias windows stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Every block of rows is some point's. -/
theorem idx_onto : ∀ q : Fin 32, ∃ t : Fin cfg0.N, win0_8.index t = ![q.val, 0] :=
  (by decide +kernel : ∀ q : Fin 32, ∃ t : Fin grid0.N, win0_8.index t = ![q.val, 0])

/-- The array row that row `p` of point `t`'s block is. -/
def row (t : Fin cfg0.N) (p : Fin 512) : Fin 16384 :=
  ⟨t.val * 512 + p.val, by have ht : t.val < 32 := lt_of_lt_of_eq t.isLt N_0; have := p.isLt; omega⟩

theorem emb_state (t : Fin cfg0.N) (p : Fin 512) (i : Fin 33) :
    ((cfg0.win 0).blk t).view.emb (ix2 p i) = ix2 (row t p) i := by
  obtain ⟨e0, e1, -⟩ := idx_facts t
  funext a; apply Fin.ext
  match a with
  | ⟨0, _⟩ => show win0_0.index t (0 : Fin 2) * 512 + 1 * p.val = t.val * 512 + p.val; omega
  | ⟨1, _⟩ => show win0_0.index t (1 : Fin 2) * 33 + 1 * i.val = i.val; omega

theorem emb_next (t : Fin cfg0.N) (p : Fin 512) (i : Fin 33) :
    ((cfg0.win 1).blk t).view.emb (ix2 p i) = ix2 (row t p) i := by
  obtain ⟨-, -, e0, e1, -⟩ := idx_facts t
  funext a; apply Fin.ext
  match a with
  | ⟨0, _⟩ => show win0_1.index t (0 : Fin 2) * 512 + 1 * p.val = t.val * 512 + p.val; omega
  | ⟨1, _⟩ => show win0_1.index t (1 : Fin 2) * 33 + 1 * i.val = i.val; omega

theorem emb_out (t : Fin cfg0.N) (p : Fin 512) (a : Fin 128) :
    ((cfg0.win 8).blk t).view.emb (ix2 p a) = ix2 (row t p) a := by
  obtain ⟨-, -, -, -, -, -, -, -, -, -, -, -, -, -, -, -, e0, e1⟩ := idx_facts t
  funext b; apply Fin.ext
  match b with
  | ⟨0, _⟩ => show win0_8.index t (0 : Fin 2) * 512 + 1 * p.val = t.val * 512 + p.val; omega
  | ⟨1, _⟩ => show win0_8.index t (1 : Fin 2) * 128 + 1 * a.val = a.val; omega

theorem emb_w1 (t : Fin cfg0.N) (y : S33x4096.Idx) : ((cfg0.win 2).blk t).view.emb y = y := by
  obtain ⟨-, -, -, -, e0, e1, -⟩ := idx_facts t
  funext a; apply Fin.ext
  match a with
  | ⟨0, _⟩ => show win0_2.index t (0 : Fin 2) * 33 + 1 * (y 0).val = (y 0).val; omega
  | ⟨1, _⟩ => show win0_2.index t (1 : Fin 2) * 4096 + 1 * (y 1).val = (y 1).val; omega

theorem emb_w2 (t : Fin cfg0.N) (y : S4096x32.Idx) : ((cfg0.win 3).blk t).view.emb y = y := by
  obtain ⟨-, -, -, -, -, -, e0, e1, -⟩ := idx_facts t
  funext a; apply Fin.ext
  match a with
  | ⟨0, _⟩ => show win0_3.index t (0 : Fin 2) * 4096 + 1 * (y 0).val = (y 0).val; omega
  | ⟨1, _⟩ => show win0_3.index t (1 : Fin 2) * 32 + 1 * (y 1).val = (y 1).val; omega

theorem emb_b2 (t : Fin cfg0.N) (y : S1x32.Idx) : ((cfg0.win 4).blk t).view.emb y = y := by
  obtain ⟨-, -, -, -, -, -, -, -, e0, e1, -⟩ := idx_facts t
  funext a; apply Fin.ext
  match a with
  | ⟨0, _⟩ => show win0_4.index t (0 : Fin 2) * 1 + 1 * (y 0).val = (y 0).val; omega
  | ⟨1, _⟩ => show win0_4.index t (1 : Fin 2) * 32 + 1 * (y 1).val = (y 1).val; omega

theorem emb_w3 (t : Fin cfg0.N) (y : S65x4096.Idx) : ((cfg0.win 5).blk t).view.emb y = y := by
  obtain ⟨-, -, -, -, -, -, -, -, -, -, e0, e1, -⟩ := idx_facts t
  funext a; apply Fin.ext
  match a with
  | ⟨0, _⟩ => show win0_5.index t (0 : Fin 2) * 65 + 1 * (y 0).val = (y 0).val; omega
  | ⟨1, _⟩ => show win0_5.index t (1 : Fin 2) * 4096 + 1 * (y 1).val = (y 1).val; omega

theorem emb_w4 (t : Fin cfg0.N) (y : S4096x128.Idx) : ((cfg0.win 6).blk t).view.emb y = y := by
  obtain ⟨-, -, -, -, -, -, -, -, -, -, -, -, e0, e1, -⟩ := idx_facts t
  funext a; apply Fin.ext
  match a with
  | ⟨0, _⟩ => show win0_6.index t (0 : Fin 2) * 4096 + 1 * (y 0).val = (y 0).val; omega
  | ⟨1, _⟩ => show win0_6.index t (1 : Fin 2) * 128 + 1 * (y 1).val = (y 1).val; omega

theorem emb_b4 (t : Fin cfg0.N) (y : S1x128.Idx) : ((cfg0.win 7).blk t).view.emb y = y := by
  obtain ⟨-, -, -, -, -, -, -, -, -, -, -, -, -, -, e0, e1, -⟩ := idx_facts t
  funext a; apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

/-! ## Each input block is the part of its array under it -/

theorem state_blk (c : Dev nD) (t : Fin cfg0.N) (p : Fin 512) (i : Fin 33) :
    iblk m c 0 t (ix2 p i) = V m c main_v2 (ix2 (row t p) i) := by
  show V m c main_v2 (((cfg0.win 0).blk t).view.emb (ix2 p i)) = _
  exact congrArg (V m c main_v2) (emb_state t p i)
theorem next_blk (c : Dev nD) (t : Fin cfg0.N) (p : Fin 512) (i : Fin 33) :
    iblk m c 1 t (ix2 p i) = V m c main_v4 (ix2 (row t p) i) := by
  show V m c main_v4 (((cfg0.win 1).blk t).view.emb (ix2 p i)) = _
  exact congrArg (V m c main_v4) (emb_next t p i)
theorem w1_blk (c : Dev nD) (t : Fin cfg0.N) (y : S33x4096.Idx) : iblk m c 2 t y = V m c main_v7 y := by
  show V m c main_v7 (((cfg0.win 2).blk t).view.emb y) = _
  exact congrArg (V m c main_v7) (emb_w1 t y)
theorem w2_blk (c : Dev nD) (t : Fin cfg0.N) (y : S4096x32.Idx) : iblk m c 3 t y = V m c main_v11 y := by
  show V m c main_v11 (((cfg0.win 3).blk t).view.emb y) = _
  exact congrArg (V m c main_v11) (emb_w2 t y)
theorem b2_blk (c : Dev nD) (t : Fin cfg0.N) (y : S1x32.Idx) : iblk m c 4 t y = V m c main_v13 y := by
  show V m c main_v13 (((cfg0.win 4).blk t).view.emb y) = _
  exact congrArg (V m c main_v13) (emb_b2 t y)
theorem w3_blk (c : Dev nD) (t : Fin cfg0.N) (y : S65x4096.Idx) : iblk m c 5 t y = V m c main_v10 y := by
  show V m c main_v10 (((cfg0.win 5).blk t).view.emb y) = _
  exact congrArg (V m c main_v10) (emb_w3 t y)
theorem w4_blk (c : Dev nD) (t : Fin cfg0.N) (y : S4096x128.Idx) : iblk m c 6 t y = V m c main_v12 y := by
  show V m c main_v12 (((cfg0.win 6).blk t).view.emb y) = _
  exact congrArg (V m c main_v12) (emb_w4 t y)
theorem b4_blk (c : Dev nD) (t : Fin cfg0.N) (y : S1x128.Idx) : iblk m c 7 t y = V m c main_v14 y := by
  show V m c main_v14 (((cfg0.win 7).blk t).view.emb y) = _
  exact congrArg (V m c main_v14) (emb_b4 t y)

/-! ## What each point writes back, the cover, and the array -/

/-- WHAT POINT `t` WRITES BACK is block `t` of the specification of the arguments. -/
theorem flushed_eq (c : Dev nD) (t : Fin cfg0.N) :
    (dats m 0 c).flushed 8 t = ((cfg0.win 8).blk t).view.read (Elt Ideal) (result m c) := by
  rw [flushed8]
  unfold out0_8
  simp only [View.ld_unit_zero (S := S512x33) zeros, View.ld_unit_zero (S := S33x4096) zeros,
    View.ld_unit_zero (S := S4096x32) zeros, View.ld_unit_zero (S := S1x32) zeros, View.ld_unit_zero (S := S65x4096) zeros,
    View.ld_unit_zero (S := S4096x128) zeros, View.ld_unit_zero (S := S1x128) zeros]
  funext y
  show View.canon (Val := Elt Ideal) [(⟨r0_7, k0_pay1 (k0_pay2 (iblk m c 0 t) (iblk m c 1 t) (iblk m c 2 t) (iblk m c 3 t)
      (iblk m c 4 t) (iblk m c 5 t) (iblk m c 6 t)) (iblk m c 7 t)⟩ : View.Piece (Elt Ideal) S512x128 .f32)] y
    = result m c (((cfg0.win 8).blk t).view.emb y)
  refine (canon8_eq _ _ _ _ _ _ _ _ y).trans ?_
  obtain ⟨p, a, rfl⟩ : ∃ (p : Fin 512) (a : Fin 128), y = ix2 p a := ⟨y 0, y 1, eq_ix2 y⟩
  refine Eq.trans ?_ (congrArg (result m c) (emb_out t p a)).symm
  refine (Body.block_at (iblk m c 0 t) (iblk m c 1 t) (iblk m c 2 t) (iblk m c 3 t) (iblk m c 4 t) (iblk m c 5 t) (iblk m c 6 t) (iblk m c 7 t)
    (fun p' => (state_blk m c t p' _).trans (Aug.state_last m c _))
    (fun p' => (next_blk m c t p' _).trans (Aug.next_last m c _)) p a).trans ?_
  have e1 : Body.w1 (iblk m c 2 t) = fun i k => m ((c : Thread nD τ).loc main_arg2) (ix2 i k) :=
    funext fun i => funext fun k => (w1_blk m c t _).trans (Aug.weights1_castSucc m c i k)
  have f1 : Body.c1 (iblk m c 2 t) = fun k => m ((c : Thread nD τ).loc main_arg3) (ix1 k) :=
    funext fun k => (w1_blk m c t _).trans (Aug.weights1_last m c k)
  have e2 : Body.w2 (iblk m c 3 t) = fun k j => m ((c : Thread nD τ).loc main_arg4) (ix2 k j) :=
    funext fun k => funext fun j => (w2_blk m c t _).trans (Aug.weights2_apply m c k j)
  have f2 : Body.c2 (iblk m c 4 t) = fun j => m ((c : Thread nD τ).loc main_arg5) (ix1 j) :=
    funext fun j => (b2_blk m c t _).trans (Aug.bias2_apply m c j)
  have e3 : Body.w3 (iblk m c 5 t) = fun j k => m ((c : Thread nD τ).loc main_arg6) (ix2 j k) :=
    funext fun j => funext fun k => (w3_blk m c t _).trans (Aug.weights3_castSucc m c j k)
  have f3 : Body.c3 (iblk m c 5 t) = fun k => m ((c : Thread nD τ).loc main_arg7) (ix1 k) :=
    funext fun k => (w3_blk m c t _).trans (Aug.weights3_last m c k)
  have e4 : Body.w4 (iblk m c 6 t) = fun k a' => m ((c : Thread nD τ).loc main_arg8) (ix2 k a') :=
    funext fun k => funext fun a' => (w4_blk m c t _).trans (Aug.weights4_apply m c k a')
  have f4 : Body.c4 (iblk m c 7 t) = fun a' => m ((c : Thread nD τ).loc main_arg9) (ix1 a') :=
    funext fun a' => (b4_blk m c t _).trans (Aug.bias4_apply m c a')
  have xs : (fun i : Fin 32 => iblk m c 0 t (ix2 p i.castSucc))
      = fun i => m ((c : Thread nD τ).loc main_arg0) (ix2 (row t p) i) :=
    funext fun i => (state_blk m c t p _).trans (Aug.state_castSucc m c _ i)
  have xn : (fun i : Fin 32 => iblk m c 1 t (ix2 p i.castSucc))
      = fun i => m ((c : Thread nD τ).loc main_arg1) (ix2 (row t p) i) :=
    funext fun i => (next_blk m c t p _).trans (Aug.next_castSucc m c _ i)
  rw [e1, f1, e2, f2, e3, f3, e4, f4, xs, xn]
  rfl

/-- An index of the array is in point `t`'s block iff each coordinate is in the block's range on its axis. -/
theorem mem_blk (t : Fin cfg0.N) (i : S16384x128.Idx) :
    i ∈ ((cfg0.win 8).blk t).view.set ↔ ∀ a : Fin 2, win0_8.index t a * S512x128.size a ≤ (i a).val
      ∧ (i a).val < win0_8.index t a * S512x128.size a + S512x128.size a := by
  show i ∈ ((View.whole main_v15).slice (win0_8.rect t)).set ↔ _
  rw [View.set_slice_whole, Rect.mem_set_unit]
  exact Iff.rfl

/-- The 32 blocks of 512 rows cover the array: row `r` is in the block of point `r / 512`. -/
theorem cover (i : S16384x128.Idx) :
    ∃ t : Fin cfg0.N, (cfg0.win 8).flush t = true ∧ i ∈ ((cfg0.win 8).blk t).view.set := by
  have hi0 : (i 0).val < 16384 := (i 0).isLt
  have hi1 : (i 1).val < 128 := (i 1).isLt
  obtain ⟨t, ht⟩ := idx_onto ⟨(i 0).val / 512, by omega⟩
  have q0 : win0_8.index t (0 : Fin 2) = (i 0).val / 512 := congrFun ht 0
  have q1 : win0_8.index t (1 : Fin 2) = 0 := congrFun ht 1
  refine ⟨t, flush0_8 t, ?_⟩
  rw [mem_blk]
  intro a
  match a with
  | ⟨0, _⟩ =>
    show win0_8.index t (0 : Fin 2) * 512 ≤ (i 0).val ∧ (i 0).val < win0_8.index t (0 : Fin 2) * 512 + 512
    omega
  | ⟨1, _⟩ =>
    show win0_8.index t (1 : Fin 2) * 128 ≤ (i 1).val ∧ (i 1).val < win0_8.index t (1 : Fin 2) * 128 + 128
    omega

/-- THE ARRAY after the run is the specification of the arguments. -/
theorem final (c : Dev nD) : (dats m 0 c).arrAt 8 cfg0.N = result m c :=
  (dats m 0 c).arrAt_eq_of_cover 8 (result m c) (fun t _ => flushed_eq m c t) cover

/-- The kernel's run re-posted: the result array at the specification of the arguments, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.KernelIdeal.Whole

end
-- ==== Proof.lean ====
/-
  The two-branch network kernel against its reference, over the extended reals.

  Both programs compute, for each of the 16384 samples, `Cert.Mlp.net`: two rectified dense layers on each of the
  two state rows, the two 32-wide feature rows side by side, a third rectified dense layer and a last affine one.
  The reference adds each bias after its matrix product. The kernel folds the first and third biases into their
  weights as one more row, met by a constant one appended to the inputs, and works on blocks of 512 samples with
  the two branches stacked; at the ideal values its changes of float format are the identity. The two agree by
  splitting the last summand off each folded sum (`Cert.Mlp.sum_last_one`); no finiteness of the inputs is used.

  * `Proof/MlpSpec.lean`: the specification `net` and that law.
  * `Proof/RefRead.lean`: the reference's result is `net` of its arguments.
  * `Proof/LibPlainMatmul.lean`: a plain matrix product read at an index.
  * `Proof/Body.lean`: a row of the block the kernel body leaves is the network of a row of each state block.
  * `Proof/Augmented.lean`: the augmented arrays the region finds, read at an index.
  * `Proof/Whole.lean`: the kernel's result array is `net` of its arguments.
  The frames are the generated ones; the idealization rewrote nothing, so `preserves` is trivial.
-/
import proofs.«139191_g11802570129985_cont_fleet_79_4_alg».proof.Defs
import proofs.«139191_g11802570129985_cont_fleet_79_4_alg».proof.Proof.Gen.Kernel
import proofs.«139191_g11802570129985_cont_fleet_79_4_alg».proof.Proof.Gen.Kernel.Skeleton
import proofs.«139191_g11802570129985_cont_fleet_79_4_alg».proof.Proof.Gen.Kernel.Launch
import proofs.«139191_g11802570129985_cont_fleet_79_4_alg».proof.Proof.Gen.Kernel.Points
import proofs.«139191_g11802570129985_cont_fleet_79_4_alg».proof.Proof.Gen.Kernel.Frame
import proofs.«139191_g11802570129985_cont_fleet_79_4_alg».proof.Proof.Gen.KernelIdeal
import proofs.«139191_g11802570129985_cont_fleet_79_4_alg».proof.Proof.Gen.KernelIdeal.Skeleton
import proofs.«139191_g11802570129985_cont_fleet_79_4_alg».proof.Proof.Gen.KernelIdeal.Launch
import proofs.«139191_g11802570129985_cont_fleet_79_4_alg».proof.Proof.Gen.KernelIdeal.Points
import proofs.«139191_g11802570129985_cont_fleet_79_4_alg».proof.Proof.Gen.KernelIdeal.Frame
import proofs.«139191_g11802570129985_cont_fleet_79_4_alg».proof.Proof.Gen.ReferenceIdeal
import proofs.«139191_g11802570129985_cont_fleet_79_4_alg».proof.Proof.Gen.Pre_finite_inputs
import proofs.«139191_g11802570129985_cont_fleet_79_4_alg».proof.Proof.Gen.KernelIdeal.Value
import proofs.«139191_g11802570129985_cont_fleet_79_4_alg».proof.Proof.Gen.ReferenceIdeal.Run
import proofs.«139191_g11802570129985_cont_fleet_79_4_alg».proof.Proof.Gen.ReferenceIdeal.Read
import proofs.«139191_g11802570129985_cont_fleet_79_4_alg».proof.Proof.MlpSpec
import proofs.«139191_g11802570129985_cont_fleet_79_4_alg».proof.Proof.RefRead
import proofs.«139191_g11802570129985_cont_fleet_79_4_alg».proof.Proof.Whole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the ten arguments, the kernel's result array and the reference's are both `net` of
    those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v29_eq, Cert.ReferenceIdeal.RefValue.result_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
